-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x1000 : Shape := ⟨2, ![512, 1000]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x1000 : S_.BroadcastsInDim S512x1000 (![] : Fin 0 → Fin S512x1000.rank)
  reducesTo_S512x1000_S_d0_1 : S512x1000.ReducesTo [0, 1] S_

variable [Facts]

def fn {F : FTy → Type} [FloatOps F] (main_arg0 : FVec F S8192x512 .f32) (main_arg1 : FVec F S512x1000 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x1000 .f32 := Host.absf main_arg1
  let main_cst_0 : FVec F S_ .f32 := constant S_ .f32 0x7F800000#32
  let main_v5 : FVec F S512x1000 .f32 := broadcastInDim S512x1000 ![] bcast_S_S512x1000 main_cst_0
  let main_v6 : IVec S512x1000 1 := cmpf .olt main_v4 main_v5
  let main_c_1 : IVec S_ 1 := constantI S_ 1 1#1
  let main_v7 : IVec S_ 1 := (fun x v => Host.reduce IntOp.andi x v reducesTo_S512x1000_S_d0_1 h_S_) main_v6 main_c_1
  let main_v8 : IVec S_ 1 := andi main_v3 main_v7
  main_v8
-- ==== Kernel.lean ====
abbrev S8192x512 : Shape := ⟨2, ![8192, 512]⟩
abbrev S512x1000 : Shape := ⟨2, ![512, 1000]⟩
abbrev S8192x1000 : Shape := ⟨2, ![8192, 1000]⟩
abbrev S1024x512 : Shape := ⟨2, ![1024, 512]⟩
abbrev S1024x1000 : Shape := ⟨2, ![1024, 1000]⟩
abbrev S1024 : Shape := ⟨1, ![1024]⟩
abbrev S1024x1 : Shape := ⟨2, ![1024, 1]⟩
abbrev S1000 : Shape := ⟨1, ![1000]⟩
abbrev S1x1000 : Shape := ⟨2, ![1, 1000]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1000, .f32⟩
  | .hbm, ⟨2, _⟩ => ⟨S8192x1000, .f32⟩
  | .local _ .vmem, ⟨0, _⟩ => ⟨S1024x512, .f32⟩
  | .local _ .vmem, ⟨1, _⟩ => ⟨S1024x512, .f32⟩
  | .local _ .vmem, ⟨2, _⟩ => ⟨S512x1000, .f32⟩
  | .local _ .vmem, ⟨3, _⟩ => ⟨S1024x1000, .f32⟩
  | .local _ .vmem, ⟨4, _⟩ => ⟨S1024x1000, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  inb_S512x1000_S512x1000_0_0 : ∀ a, (![0, 0] : Fin 2 → Nat) a + S512x1000.size a ≤ S512x1000.size a
  h_S512x1000 : 0 < S512x1000.numel
  bitsLt_bf16_f32 : FTy.bits .bf16 < FTy.bits .f32
  reduces_S1024x512_S1024 : S1024x512.Reduces [1] S1024
  shapeCasts_S1024_S1024x1 : S1024.ShapeCasts S1024x1
  reduces_S512x1000_S1000 : S512x1000.Reduces [0] S1000
  shapeCasts_S1000_S1x1000 : S1000.ShapeCasts S1x1000
  broadcasts_S1024x1_S1024x1000 : S1024x1.Broadcasts S1024x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x512_S512x1000_S1024x1000_1_0_0_1_n_n_wf : DotDims.WF S1024x512 S512x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S512x1000.size a
  hwx0_1 : ∀ i : grid0.Coords, EltTy.bits .f32 = 32 ∨ (Rect.block (s := S512x1000) S512x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1000.size a ≤ S8192x1000.size a
  hwx0_2 : ∀ i : grid0.Coords, EltTy.bits .f32 = 32 ∨ (Rect.block (s := S8192x1000) S1024x1000.size (cc0_transform_2 i) (hinb0_2 i)).WholeWords (EltTy.packing .f32)

variable [Facts₀]

def dot_S1024x512_S512x1000_S1024x1000_1_0_0_1_n_n : DotDims S1024x512 S512x1000 S1024x1000 where
  lhsContracting := [1]
  rhsContracting := [0]
  lhsNonContracting := [0]
  rhsNonContracting := [1]
  lhsBatch := []
  rhsBatch := []
  wf := dot_S1024x512_S512x1000_S1024x1000_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x1000 : Shape := ⟨2, ![512, 1000]⟩
abbrev S_ : Shape := ⟨0, ![]⟩
abbrev S8192 : Shape := ⟨1, ![8192]⟩
abbrev S8192x1 : Shape := ⟨2, ![8192, 1]⟩
abbrev S1000 : Shape := ⟨1, ![1000]⟩
abbrev S1x1000 : Shape := ⟨2, ![1, 1000]⟩
abbrev S8192x1000 : Shape := ⟨2, ![8192, 1000]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1000, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S512x1000, .f32⟩
  | .hbm, ⟨7, _⟩ => ⟨S_, .f32⟩
  | .hbm, ⟨8, _⟩ => ⟨S1000, .f32⟩
  | .hbm, ⟨9, _⟩ => ⟨S1x1000, .f32⟩
  | .hbm, ⟨10, _⟩ => ⟨S8192x1000, .f32⟩
  | .hbm, ⟨11, _⟩ => ⟨S8192x1000, .f32⟩
  | .hbm, ⟨12, _⟩ => ⟨S8192x1000, .f32⟩
  | .hbm, ⟨13, _⟩ => ⟨S8192x1000, .f32⟩
  | .hbm, ⟨14, _⟩ => ⟨S_, .f32⟩
  | .hbm, ⟨15, _⟩ => ⟨S8192x1000, .f32⟩
  | .hbm, ⟨16, _⟩ => ⟨S8192x1000, .f32⟩
  | .hbm, ⟨17, _⟩ => ⟨S8192x1000, .f32⟩
  | .hbm, ⟨18, _⟩ => ⟨S_, .f32⟩
  | .hbm, ⟨19, _⟩ => ⟨S8192x1000, .f32⟩
  | .hbm, ⟨20, _⟩ => ⟨S8192x1000, .f32⟩
  | .hbm, ⟨21, _⟩ => ⟨S8192x1000, .f32⟩
  | .hbm, ⟨22, _⟩ => ⟨S8192x1000, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S512x1000_S1000_d0 : S512x1000.ReducesTo [0] S1000
  bcast_S1000_S1x1000_1 : S1000.BroadcastsInDim S1x1000 (![1] : Fin 1 → Fin S1x1000.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S8192x512_S512x1000_S8192x1000_1_0_0_1_n_n_wf : DotDims.WF S8192x512 S512x1000 S8192x1000 [1] [0] [0] [1] [] []

variable [Facts₀]

def dot_S8192x512_S512x1000_S8192x1000_1_0_0_1_n_n : DotDims S8192x512 S512x1000 S8192x1000 where
  lhsContracting := [1]
  rhsContracting := [0]
  lhsNonContracting := [0]
  rhsNonContracting := [1]
  lhsBatch := []
  rhsBatch := []
  wf := dot_S8192x512_S512x1000_S8192x1000_1_0_0_1_n_n_wf

class Facts : Prop extends Facts₀ where

variable [Facts]
-- ==== Proof.Spec.lean ====
/-
  The function both programs compute, over the extended reals.

  For `x : [8192, 512]` and `w : [512, 1000]` the result at `(p, q)` is the negated Euclidean distance
  between row `p` of `x` and column `q` of `w`, through the expansion
  `‖a - b‖² = ‖a‖² + ‖b‖² - 2 a·b`:

      - sqrt (max ((∑ₖ x[p,k]²) + (∑ₖ w[k,q]²) - 2 · ∑ₖ x[p,k] · w[k,q]) 0).

  The factor `2` is kept as the float word both programs carry; it is never evaluated.
-/
import Idealize.ShloMosaic.PureOps.Ideal
import Idealize.ShloMosaic.Lib.ValueIdx

noncomputable section

namespace Cert.NegDist

open Idealize.ShloMosaic Idealize.ShloMosaic.ValueIdx

/-- The float word `2.0`, read at the extended reals. -/
abbrev two : EReal := Ideal.ofBits .f32 0x40000000#32

/-- The clamped squared distance, negated root taken, from the three sums. -/
def ofSums (xx ww xw : EReal) : EReal := -(Ideal.sqrt (max (xx + ww - two * xw) 0))

/-- The result at row `p`, column `q`. -/
def at_ (x : (⟨2, ![8192, 512]⟩ : Shape).Idx → EReal) (w : (⟨2, ![512, 1000]⟩ : Shape).Idx → EReal)
    (p : Fin 8192) (q : Fin 1000) : EReal :=
  ofSums (∑ k : Fin 512, x (ix2 p k) * x (ix2 p k)) (∑ k : Fin 512, w (ix2 k q) * w (ix2 k q))
    (∑ k : Fin 512, x (ix2 p k) * w (ix2 k q))

/-- The whole `[8192, 1000]` result. -/
def arr (x : (⟨2, ![8192, 512]⟩ : Shape).Idx → EReal) (w : (⟨2, ![512, 1000]⟩ : Shape).Idx → EReal) :
    (⟨2, ![8192, 1000]⟩ : Shape).Idx → EReal :=
  fun i => at_ x w (i 0) (i 1)

theorem arr_ix2 (x : (⟨2, ![8192, 512]⟩ : Shape).Idx → EReal) (w : (⟨2, ![512, 1000]⟩ : Shape).Idx → EReal)
    (p : Fin 8192) (q : Fin 1000) : arr x w (ix2 p q) = at_ x w p q := rfl

end Cert.NegDist

end
-- ==== Proof.RefSide.lean ====
/-
  The reference's result, stage by stage, is the negated-distance function of its two arguments.

  Reading the reference's last stage at `(p, q)` and following each stage back to the arguments: the two
  keepdims sums are broadcast back over the axis they reduced, so at `(p, q)` they are the sum over `k`
  of `x[p,k]²` and of `w[k,q]²`, each started from the zero word; the product of the two matrices at
  `(p, q)` is the sum over `k` of `x[p,k] · w[k,q]`; the rest is pointwise. Starting a sum at zero
  changes nothing, and the host's negation is the negation.
-/
import proofs.«171010_j47777216201318_1_alg».proof.Proof.Gen.ReferenceIdeal.Read
import proofs.«171010_j47777216201318_1_alg».proof.Proof.Spec

noncomputable section

namespace Cert.ReferenceIdeal.RefValue

open Cert.ReferenceIdeal Cert.ReferenceIdeal.Read Idealize.ShloMosaic Idealize.ShloMosaic.ValueIdx

/-- The reference's last stage at `(p, q)`. -/
theorem result_at (x0 : (⟨S8192x512, .f32⟩ : BufTy).Contents (Elt Ideal)) (x1 : (⟨S512x1000, .f32⟩ : BufTy).Contents (Elt Ideal))
    (p : Fin 8192) (q : Fin 1000) :
    val_main_v16 (F := Ideal) x0 x1 (ix2 p q) = Cert.NegDist.at_ x0 x1 p q := by
  -- where each stage reads its operand, once the index is `(p, q)`
  have hx : ∀ k : Fin 512, idx_main_v1 (idx_main_v2 (idx_main_v7 (ix2 p q))) k = ix2 p k := fun k =>
    funext fun a => Fin.ext (by match a with | ⟨0, _⟩ => rfl | ⟨1, _⟩ => rfl)
  have hw : ∀ k : Fin 512, idx_main_v4 (idx_main_v5 (idx_main_v8 (ix2 p q))) k = ix2 k q := fun k =>
    funext fun a => Fin.ext (by match a with | ⟨0, _⟩ => rfl | ⟨1, _⟩ => rfl)
  have hl : ∀ k : Fin 512, lidx_main_v6 (ix2 p q) k = ix2 p k := fun k =>
    funext fun a => Fin.ext (by match a with | ⟨0, _⟩ => rfl | ⟨1, _⟩ => rfl)
  have hr : ∀ k : Fin 512, ridx_main_v6 (ix2 p q) k = ix2 k q := fun k =>
    funext fun a => Fin.ext (by match a with | ⟨0, _⟩ => rfl | ⟨1, _⟩ => rfl)
  rw [val_main_v16_apply, val_main_v15_apply, val_main_v14_apply, val_main_v12_apply, val_main_v9_apply,
    val_main_v7_apply, val_main_v2_apply, val_main_v1_apply, val_main_v8_apply, val_main_v5_apply, val_main_v4_apply,
    val_main_v11_apply, val_main_v10_apply, val_main_v6_apply, val_main_v13_apply]
  simp only [hx, hw, hl, hr, val_main_v0_apply, val_main_v3_apply, val_main_cst_apply, val_main_cst_0_apply,
    val_main_cst_1_apply, val_main_cst_2_apply, Ideal.mulf_def, Ideal.addf_def, Ideal.subf_def, Ideal.maximumf_def,
    Ideal.hostUnary_sqrt_def, Ideal.hostNegf_def, Ideal.negf_def, Ideal.ofBits_def, Ideal.ofBits_zero_f32, zero_add]
  rfl

/-- The reference's last stage is the negated-distance array of its arguments. -/
theorem result_eq (x0 : (⟨S8192x512, .f32⟩ : BufTy).Contents (Elt Ideal)) (x1 : (⟨S512x1000, .f32⟩ : BufTy).Contents (Elt Ideal)) :
    val_main_v16 (F := Ideal) x0 x1 = Cert.NegDist.arr x0 x1 := by
  funext i
  obtain ⟨p, q, rfl⟩ : ∃ (p : Fin 8192) (q : Fin 1000), i = ix2 p q := ⟨i 0, i 1, eq_ix2 i⟩
  exact result_at x0 x1 p q

end Cert.ReferenceIdeal.RefValue

end
-- ==== Proof.LibKeepdims.lean ====
/-
  Keepdims layouts read at an index, for values of any element type.

  A reduction written with `keepdims=True` leaves a unit axis behind and is then broadcast back over the
  reduced axis. Two of the layout steps this produces are read here at an index given by coordinates:

  * a vector `[a]` recast as a column `[a, 1]` holds, at `(i, u)`, the vector's entry `i` (the unit
    coordinate `u` can only be `0`, and the row-major positions `i` and `i * 1 + u` agree);
  * a column `[a, 1]` broadcast to `[a, b]` holds, at `(p, c)`, the column's entry `(p, 0)`: the unit axis
    is read at `0`, the other axis at the same coordinate (when `a = 1` that coordinate is `0` anyway).

  Together with the row forms (`[a] → [1, a]` and `[1, b] → [a, b]`) of the layout library these cover both
  operands of `rowsum[:, None] + colsum[None, :]`.
-/
import Idealize.ShloMosaic.Lib.ValueLayout

namespace KeepdimsLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsLayout
-- ==== Proof.BodySide.lean ====
/-
  The kernel body's one store, read at an entry of the output block.

  The body loads a `[1024, 512]` block `x` and the whole `[512, 1000]` matrix `w` and stores, at `(r, q)`,

      0 - sqrt (max ((rowsq[r] + colsq[q]) - 2 · (x · w)[r, q]) 0),

  where `rowsq` is the lane sum of `x * x` kept as a column and broadcast over the columns, `colsq` the
  sublane sum of `w * w` kept as a row and broadcast over the rows, and `x · w` the matrix product into a
  zero accumulator (its operands first narrowed to bf16, which changes nothing over the extended reals).
  Each of the three is a sum over the 512 contraction coordinates; with `0 - y = -y` the entry is the
  negated-distance expression of those three sums.
-/
import proofs.«171010_j47777216201318_1_alg».proof.Proof.Gen.KernelIdeal.Skeleton
import proofs.«171010_j47777216201318_1_alg».proof.Proof.LibKeepdims
import proofs.«171010_j47777216201318_1_alg».proof.Proof.Spec
import Idealize.ShloMosaic.PureOps.Ideal.Laws
import Idealize.ShloMosaic.Lib.ValueIdx
import Idealize.ShloMosaic.Lib.ValueLayout

noncomputable section

namespace Cert.KernelIdeal.BodyValue

open Cert.KernelIdeal Cert.KernelIdeal.Gen Idealize.ShloMosaic Idealize.ShloMosaic.ValueIdx

/-! ## The three sums -/

/-- The row sums of squares of the block, as the body spreads them over the output block. -/
def rowSq (x0 : FVec Ideal S1024x512 .f32) : FVec Ideal S1024x1000 .f32 :=
  broadcastTo S1024x1000 (shapeCast S1024x1 (multiReduction .add [1] S1024 (mulf x0 x0) 0x00000000#32
    reduces_S1024x512_S1024 (.inl rfl) rfl) shapeCasts_S1024_S1024x1) broadcasts_S1024x1_S1024x1000

/-- The column sums of squares of the matrix, as the body spreads them over the output block. -/
def colSq (x1 : FVec Ideal S512x1000 .f32) : FVec Ideal S1024x1000 .f32 :=
  broadcastTo S1024x1000 (shapeCast S1x1000 (multiReduction .add [0] S1000 (mulf x1 x1) 0x00000000#32
    reduces_S512x1000_S1000 (.inl rfl) rfl) shapeCasts_S1000_S1x1000) broadcasts_S1x1000_S1024x1000

/-- The block times the matrix, into a zero accumulator. -/
def cross (x0 : FVec Ideal S1024x512 .f32) (x1 : FVec Ideal S512x1000 .f32) : FVec Ideal S1024x1000 .f32 :=
  matmul dot_S1024x512_S512x1000_S1024x1000_1_0_0_1_n_n none (truncf .bf16 x0 bitsLt_bf16_f32)
    (truncf .bf16 x1 bitsLt_bf16_f32) (constant S1024x1000 .f32 0x00000000#32)

/-- At `(r, q)` the spread row sums read row `r`'s sum of squares. -/
theorem rowSq_at (x0 : FVec Ideal S1024x512 .f32) (r : Fin 1024) (q : Fin 1000) :
    rowSq x0 (ix2 r q) = ∑ k : Fin 512, x0 (ix2 r k) * x0 (ix2 r k) := by
  unfold rowSq
  refine (KeepdimsLayout.broadcastTo_a1_ab_apply _ _ r q).trans ?_
  refine (KeepdimsLayout.shapeCast_a_a1_apply _ _ r 0).trans ?_
  refine (Ideal.multiReduction_add_single _ _ reduces_S1024x512_S1024 _ _ (ix1 r)).trans ?_
  refine Finset.sum_congr rfl fun k _ => ?_
  have e : reduces_S1024x512_S1024.lift (ix1 r) k = ix2 r k :=
    funext fun a => Fin.ext (by match a with | ⟨0, _⟩ => rfl | ⟨1, _⟩ => rfl)
  rw [e]
  rfl

/-- At `(r, q)` the spread column sums read column `q`'s sum of squares. -/
theorem colSq_at (x1 : FVec Ideal S512x1000 .f32) (r : Fin 1024) (q : Fin 1000) :
    colSq x1 (ix2 r q) = ∑ k : Fin 512, x1 (ix2 k q) * x1 (ix2 k q) := by
  unfold colSq
  refine (broadcastTo_1b_ab_apply _ _ r q).trans ?_
  refine (shapeCast_a_1a_apply _ _ 0 q).trans ?_
  refine (Ideal.multiReduction_add_single _ _ reduces_S512x1000_S1000 _ _ (ix1 q)).trans ?_
  refine Finset.sum_congr rfl fun k _ => ?_
  have e : reduces_S512x1000_S1000.lift (ix1 q) k = ix2 k q :=
    funext fun a => Fin.ext (by match a with | ⟨0, _⟩ => rfl | ⟨1, _⟩ => rfl)
  rw [e]
  rfl

/-! ## The matrix product at an entry -/

theorem lhs_axis0 (i : S1024x1000.Idx) (c : dot_S1024x512_S512x1000_S1024x1000_1_0_0_1_n_n.contr.Idx) :
    (dot_S1024x512_S512x1000_S1024x1000_1_0_0_1_n_n.lhsIdx i c 0).val = (i 0).val := by
  unfold DotDims.lhsIdx
  rw [dif_neg (show ¬(0 : Fin S1024x512.rank) ∈ dot_S1024x512_S512x1000_S1024x1000_1_0_0_1_n_n.lhsBatch by decide),
    dif_pos (show (0 : Fin S1024x512.rank) ∈ dot_S1024x512_S512x1000_S1024x1000_1_0_0_1_n_n.lhsNonContracting by decide)]
  rfl
theorem lhs_axis1 (i : S1024x1000.Idx) (c : dot_S1024x512_S512x1000_S1024x1000_1_0_0_1_n_n.contr.Idx) :
    (dot_S1024x512_S512x1000_S1024x1000_1_0_0_1_n_n.lhsIdx i c 1).val = (c ⟨0, by decide⟩).val :=
  dot_S1024x512_S512x1000_S1024x1000_1_0_0_1_n_n.lhsIdx_val_of_single rfl i c
theorem rhs_axis0 (i : S1024x1000.Idx) (c : dot_S1024x512_S512x1000_S1024x1000_1_0_0_1_n_n.contr.Idx) :
    (dot_S1024x512_S512x1000_S1024x1000_1_0_0_1_n_n.rhsIdx i c 0).val = (c ⟨0, by decide⟩).val :=
  dot_S1024x512_S512x1000_S1024x1000_1_0_0_1_n_n.rhsIdx_val_of_single rfl i c
theorem rhs_axis1 (i : S1024x1000.Idx) (c : dot_S1024x512_S512x1000_S1024x1000_1_0_0_1_n_n.contr.Idx) :
    (dot_S1024x512_S512x1000_S1024x1000_1_0_0_1_n_n.rhsIdx i c 1).val = (i 1).val := by
  unfold DotDims.rhsIdx
  rw [dif_neg (show ¬(1 : Fin S512x1000.rank) ∈ dot_S1024x512_S512x1000_S1024x1000_1_0_0_1_n_n.rhsBatch by decide),
    dif_pos (show (1 : Fin S512x1000.rank) ∈ dot_S1024x512_S512x1000_S1024x1000_1_0_0_1_n_n.rhsNonContracting by decide)]
  rfl

/-- At `(r, q)` the product is the sum over `k` of `x[r,k] · w[k,q]`. -/
theorem cross_at (x0 : FVec Ideal S1024x512 .f32) (x1 : FVec Ideal S512x1000 .f32) (r : Fin 1024) (q : Fin 1000) :
    cross x0 x1 (ix2 r q) = ∑ k : Fin 512, x0 (ix2 r k) * x1 (ix2 k q) := by
  unfold cross
  refine (Ideal.matmul_constant_zero_apply dot_S1024x512_S512x1000_S1024x1000_1_0_0_1_n_n none _ _ (ix2 r q)).trans ?_
  rw [← Equiv.sum_comp (contrEquiv1 dot_S1024x512_S512x1000_S1024x1000_1_0_0_1_n_n 512 rfl rfl).symm]
  refine Finset.sum_congr rfl fun k _ => ?_
  have hk := contrEquiv1_symm_val dot_S1024x512_S512x1000_S1024x1000_1_0_0_1_n_n 512 rfl rfl k
  have el : dot_S1024x512_S512x1000_S1024x1000_1_0_0_1_n_n.lhsIdx (ix2 r q)
      ((contrEquiv1 dot_S1024x512_S512x1000_S1024x1000_1_0_0_1_n_n 512 rfl rfl).symm k) = ix2 r k :=
    funext fun a => Fin.ext (by
      match a with
      | ⟨0, _⟩ => exact lhs_axis0 _ _
      | ⟨1, _⟩ => exact (lhs_axis1 _ _).trans hk)
  have er : dot_S1024x512_S512x1000_S1024x1000_1_0_0_1_n_n.rhsIdx (ix2 r q)
      ((contrEquiv1 dot_S1024x512_S512x1000_S1024x1000_1_0_0_1_n_n 512 rfl rfl).symm k) = ix2 k q :=
    funext fun a => Fin.ext (by
      match a with
      | ⟨0, _⟩ => exact (rhs_axis0 _ _).trans hk
      | ⟨1, _⟩ => exact rhs_axis1 _ _)
  rw [el, er]
  rfl

/-! ## The stored value -/

/-- The body's stored value is the pointwise tail over the three sums. -/
theorem pay_split (x0 : FVec Ideal S1024x512 .f32) (x1 : FVec Ideal S512x1000 .f32) :
    k0_pay1 (F := Ideal) x0 x1
      = subf (broadcast S1024x1000 (Scalar.ofBits .f32 0x00000000#32))
          (sqrt (maximumf (subf (addf (rowSq x0) (colSq x1))
              (mulf (broadcast S1024x1000 (Scalar.ofBits .f32 0x40000000#32)) (cross x0 x1)))
            (broadcast S1024x1000 (Scalar.ofBits .f32 0x00000000#32)))) := rfl

/-- The stored value at `(r, q)`, from the three sums. -/
theorem pay_at (x0 : FVec Ideal S1024x512 .f32) (x1 : FVec Ideal S512x1000 .f32) (r : Fin 1024) (q : Fin 1000) :
    k0_pay1 (F := Ideal) x0 x1 (ix2 r q)
      = Cert.NegDist.ofSums (∑ k : Fin 512, x0 (ix2 r k) * x0 (ix2 r k)) (∑ k : Fin 512, x1 (ix2 k q) * x1 (ix2 k q))
          (∑ k : Fin 512, x0 (ix2 r k) * x1 (ix2 k q)) := by
  rw [pay_split]
  show Ideal.ofBits .f32 0x00000000#32 - Ideal.sqrt (max (rowSq x0 (ix2 r q) + colSq x1 (ix2 r q)
      - Ideal.ofBits .f32 0x40000000#32 * cross x0 x1 (ix2 r q)) (Ideal.ofBits .f32 0x00000000#32)) = _
  rw [rowSq_at, colSq_at, cross_at, Ideal.ofBits_zero_f32, zero_sub]
  rfl

/-- The stored value at `(r, q)` when the block's row `r` is the array's row `p` and the second block is the whole
    matrix: the negated-distance function of the arrays at `(p, q)`. -/
theorem pay_eq_at (X : (⟨2, ![8192, 512]⟩ : Shape).Idx → EReal) (W : (⟨2, ![512, 1000]⟩ : Shape).Idx → EReal)
    (x0 : FVec Ideal S1024x512 .f32) (x1 : FVec Ideal S512x1000 .f32) (r : Fin 1024) (q : Fin 1000) (p : Fin 8192)
    (h0 : ∀ k : Fin 512, x0 (ix2 r k) = X (ix2 p k)) (h1 : ∀ k : Fin 512, x1 (ix2 k q) = W (ix2 k q)) :
    k0_pay1 (F := Ideal) x0 x1 (ix2 r q) = Cert.NegDist.at_ X W p q := by
  rw [pay_at]
  unfold Cert.NegDist.at_
  simp only [h0, h1]

end Cert.KernelIdeal.BodyValue

end
-- ==== Proof.Blocks.lean ====
/-
  From the output's blocks to the whole output array.

  The grid has 8 points. Point `t` stages rows `1024 t … 1024 t + 1023` of `x` (all 512 columns), the
  whole of `w`, and writes back rows `1024 t … 1024 t + 1023` of the output (all 1000 columns). So entry
  `(r, q)` of what point `t` writes back is the body's stored value on a block whose row `r` is row
  `1024 t + r` of `x`: the negated-distance function of the arrays at `(1024 t + r, q)`, which is where that
  entry lands in the output. The 8 row bands cover all 8192 rows (row `i` lies in band `i / 1024`), so the
  output array ends as the negated-distance array of the two arguments.
-/
import proofs.«171010_j47777216201318_1_alg».proof.Proof.Gen.KernelIdeal.Value
import proofs.«171010_j47777216201318_1_alg».proof.Proof.BodySide

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-- The block indices over the grid: the input block of `x` and the output block both sit at row band `t`,
    column band `0`; the block of `w` is always the whole matrix. -/
theorem band_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the negated-distance array of the two argument arrays. -/
theorem flushed_eq (c : Dev nD) (t : Fin cfg0.N) :
    (dats m 0 c).flushed 2 t
      = ((cfg0.win 2).blk t).view.read (Elt Ideal) (Cert.NegDist.arr (V m c main_arg0) (V m c main_arg1)) := by
  rw [Value.flushed2]
  unfold out0_2
  rw [View.canon_unit_zero zeros2]
  simp only [View.ld_unit_zero (S := S1024x512) zeros2, View.ld_unit_zero (S := S512x1000) zeros2]
  obtain ⟨e00, e01, e10, e11, e20, e21⟩ := band_facts t
  have hN : t.val < 8 := lt_of_lt_of_eq t.isLt N_0
  funext j
  obtain ⟨r, q, rfl⟩ : ∃ (r : Fin 1024) (q : Fin 1000), j = ix2 r q := ⟨j 0, j 1, eq_ix2 j⟩
  have hr : r.val < 1024 := r.isLt
  show k0_pay1 (F := Ideal) (iblk m c 0 t) (iblk m c 1 t) (ix2 r q)
    = Cert.NegDist.arr (V m c main_arg0) (V m c main_arg1) (((cfg0.win 2).blk t).view.emb (ix2 r q))
  have hout : ((cfg0.win 2).blk t).view.emb (ix2 r q) = ix2 (⟨t.val * 1024 + r.val, by omega⟩ : Fin 8192) q := by
    funext a; apply Fin.ext
    match a with
    | ⟨0, _⟩ => show win0_2.index t (0 : Fin 2) * 1024 + 1 * r.val = t.val * 1024 + r.val; omega
    | ⟨1, _⟩ => show win0_2.index t (1 : Fin 2) * 1000 + 1 * q.val = q.val; omega
  rw [hout, Cert.NegDist.arr_ix2]
  refine BodyValue.pay_eq_at (V m c main_arg0) (V m c main_arg1) (iblk m c 0 t) (iblk m c 1 t) r q
    (⟨t.val * 1024 + r.val, by omega⟩ : Fin 8192) (fun k => ?_) (fun k => ?_)
  · show V m c main_arg0 (((cfg0.win 0).blk t).view.emb (ix2 r k)) = V m c main_arg0 _
    refine congrArg (V m c main_arg0) (funext fun a => Fin.ext ?_)
    match a with
    | ⟨0, _⟩ => show win0_0.index t (0 : Fin 2) * 1024 + 1 * r.val = t.val * 1024 + r.val; omega
    | ⟨1, _⟩ => show win0_0.index t (1 : Fin 2) * 512 + 1 * k.val = k.val; omega
  · show V m c main_arg1 (((cfg0.win 1).blk t).view.emb (ix2 k q)) = V m c main_arg1 _
    refine congrArg (V m c main_arg1) (funext fun a => Fin.ext ?_)
    match a with
    | ⟨0, _⟩ => show win0_1.index t (0 : Fin 2) * 512 + 1 * k.val = k.val; omega
    | ⟨1, _⟩ => show win0_1.index t (1 : Fin 2) * 1000 + 1 * q.val = q.val; omega

/-- An index of the output array is in point `t`'s block iff each coordinate is in the block's range on its axis. -/
theorem mem_band (t : Fin cfg0.N) (i : S8192x1000.Idx) :
    i ∈ ((cfg0.win 2).blk t).view.set ↔ ∀ a : Fin 2, win0_2.index t a * S1024x1000.size a ≤ (i a).val
      ∧ (i a).val < win0_2.index t a * S1024x1000.size a + S1024x1000.size a := by
  show i ∈ ((View.whole main_v0).slice (win0_2.rect t)).set ↔ _
  rw [View.set_slice_whole, Rect.mem_set_unit]
  exact Iff.rfl

/-- Every output index lies in the band of the point `row / 1024`. -/
theorem bands_cover (i : S8192x1000.Idx) :
    ∃ t : Fin cfg0.N, (cfg0.win 2).flush t = true ∧ i ∈ ((cfg0.win 2).blk t).view.set := by
  have hi0 : (i 0).val < 8192 := (i 0).isLt
  have hi1 : (i 1).val < 1000 := (i 1).isLt
  have hlt : (i 0).val / 1024 < cfg0.N := lt_of_lt_of_eq (show (i 0).val / 1024 < 8 by omega) N_0.symm
  refine ⟨⟨(i 0).val / 1024, hlt⟩, flush0_2 _, ?_⟩
  obtain ⟨-, -, -, -, e20, e21⟩ := band_facts ⟨(i 0).val / 1024, hlt⟩
  have e20' : win0_2.index ⟨(i 0).val / 1024, hlt⟩ (0 : Fin 2) = (i 0).val / 1024 := e20
  rw [mem_band]
  intro a
  match a with
  | ⟨0, _⟩ =>
    show win0_2.index ⟨(i 0).val / 1024, hlt⟩ (0 : Fin 2) * 1024 ≤ (i 0).val
      ∧ (i 0).val < win0_2.index ⟨(i 0).val / 1024, hlt⟩ (0 : Fin 2) * 1024 + 1024
    omega
  | ⟨1, _⟩ =>
    show win0_2.index ⟨(i 0).val / 1024, hlt⟩ (1 : Fin 2) * 1000 ≤ (i 1).val
      ∧ (i 1).val < win0_2.index ⟨(i 0).val / 1024, hlt⟩ (1 : Fin 2) * 1000 + 1000
    omega

/-- THE OUTPUT ARRAY after the run: the negated-distance array of the two arguments as launched. -/
theorem final (c : Dev nD) :
    (dats m 0 c).arrAt 2 cfg0.N
      = Cert.NegDist.arr (m ((c : Thread nD τ).loc main_arg0)) (m ((c : Thread nD τ).loc main_arg1)) :=
  (dats m 0 c).arrAt_eq_of_cover 2 (Cert.NegDist.arr (V m c main_arg0) (V m c main_arg1))
    (fun t _ => flushed_eq m c t) bands_cover

/-- The kernel's run, with the output array named as that function of the arguments. -/
theorem run : θ_run defs (onTc (τ := τ) (main (F := Ideal))) ⟨m, fun _ => 0, ρ⟩ fun r => ∀ c : Dev nD,
      r.2.mem ((c : Thread nD τ).loc main_v0)
        = Cert.NegDist.arr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrValue

end
-- ==== Proof.lean ====
/-
  The negated pairwise Euclidean distance `-‖x_p - w_q‖` of the rows of `x : [8192, 512]` to the columns of
  `w : [512, 1000]`, computed by both programs through `‖a‖² + ‖b‖² - 2 a·b`, clamped at zero before the root.

  The kernel walks the rows in 8 bands of 1024; in each band it forms the row sums of squares, the column sums
  of squares of the whole `w`, and the band times `w` on the matrix unit (operands narrowed to bf16, which over
  the extended reals is the identity), and stores `0 - sqrt (max (… ) 0)`. The reference does the same on the whole
  arrays with a `dot_general` and a final negation. Over the extended reals every sum is the plain sum over the
  512 contraction coordinates whatever its grouping or starting zero, and `0 - y = -y`, so both results are ONE
  function of the arguments, entry by entry (Proof/Spec.lean). No finiteness of the inputs is used: the two
  sides are the same expression of the same three sums.

  Proof/RefSide.lean reads the reference's stages back to that function; Proof/BodySide.lean reads the kernel body's
  stored value at an entry of its block; Proof/Blocks.lean places the 8 bands in the output array. The frames are
  the generated ones; the ideal pass rewrote nothing, so there is nothing to preserve.
-/
import proofs.«171010_j47777216201318_1_alg».proof.Defs
import proofs.«171010_j47777216201318_1_alg».proof.Proof.Gen.Kernel
import proofs.«171010_j47777216201318_1_alg».proof.Proof.Gen.Kernel.Skeleton
import proofs.«171010_j47777216201318_1_alg».proof.Proof.Gen.Kernel.Launch
import proofs.«171010_j47777216201318_1_alg».proof.Proof.Gen.Kernel.Points
import proofs.«171010_j47777216201318_1_alg».proof.Proof.Gen.Kernel.Frame
import proofs.«171010_j47777216201318_1_alg».proof.Proof.Gen.KernelIdeal
import proofs.«171010_j47777216201318_1_alg».proof.Proof.Gen.KernelIdeal.Skeleton
import proofs.«171010_j47777216201318_1_alg».proof.Proof.Gen.KernelIdeal.Launch
import proofs.«171010_j47777216201318_1_alg».proof.Proof.Gen.KernelIdeal.Points
import proofs.«171010_j47777216201318_1_alg».proof.Proof.Gen.KernelIdeal.Frame
import proofs.«171010_j47777216201318_1_alg».proof.Proof.Gen.ReferenceIdeal
import proofs.«171010_j47777216201318_1_alg».proof.Proof.Gen.Pre_finite_inputs
import proofs.«171010_j47777216201318_1_alg».proof.Proof.Gen.KernelIdeal.Value
import proofs.«171010_j47777216201318_1_alg».proof.Proof.Gen.ReferenceIdeal.Run
import proofs.«171010_j47777216201318_1_alg».proof.Proof.Gen.ReferenceIdeal.Read
import proofs.«171010_j47777216201318_1_alg».proof.Proof.RefSide
import proofs.«171010_j47777216201318_1_alg».proof.Proof.Blocks
import Idealize.ShloMosaic.Adequacy
import Idealize.ShloMosaic.Init

noncomputable section

namespace Cert.Proof

open Idealize.ShloMosaic Idealize.SL.Sem Cert.Kernel

/-- The kernel as printed runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the negated-distance array of the (agreeing) arguments. -/
theorem algebraic : Cert.algebraic_KernelIdeal_ReferenceIdeal := by
  intro m ρ m' ρ' _ hagree
  refine ⟨fun c => Cert.NegDist.arr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
